-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S32768 : Shape := ⟨1, ![32768]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768 : S_.BroadcastsInDim S32768 (![] : Fin 0 → Fin S32768.rank)
  reducesTo_S32768_S_d0 : S32768.ReducesTo [0] S_
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S32768 .f32) (main_arg2 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  main_v13
-- ==== Kernel.lean ====
abbrev S32768x4096 : Shape := ⟨2, ![32768, 4096]⟩
abbrev S32768 : Shape := ⟨1, ![32768]⟩
abbrev S64x4096 : Shape := ⟨2, ![64, 4096]⟩
abbrev S32768x1 : Shape := ⟨2, ![32768, 1]⟩
abbrev S32768x64 : Shape := ⟨2, ![32768, 64]⟩
abbrev S512x4096 : Shape := ⟨2, ![512, 4096]⟩
abbrev S512x1 : Shape := ⟨2, ![512, 1]⟩
abbrev S512x64 : Shape := ⟨2, ![512, 64]⟩
abbrev S64x512 : Shape := ⟨2, ![64, 512]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S32768, .f32⟩
  | .hbm, ⟨2, _⟩ => ⟨S64x4096, .f32⟩
  | .hbm, ⟨3, _⟩ => ⟨S32768x1, .f32⟩
  | .hbm, ⟨4, _⟩ => ⟨S32768x64, .f32⟩
  | .hbm, ⟨5, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S64x4096, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768_S32768x1 : S32768.ShapeCasts S32768x1
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  transposes_S64x512_p1_0_S512x64 : S64x512.Transposes [1, 0] S512x64
  reduces_S512x64_S512 : S512x64.Reduces [1] S512
  shapeCasts_S512_S512x1 : S512.ShapeCasts S512x1
  broadcasts_S512x1_S512x64 : S512x1.Broadcasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S32768x64.size a
  hwx0_3 : ∀ i : grid0.Coords, EltTy.bits .f32 = 32 ∨ (Rect.block (s := S32768x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S32768x64.size a
  hwx0_4 : ∀ i : grid0.Coords, EltTy.bits .f32 = 32 ∨ (Rect.block (s := S32768x64) S512x64.size (cc0_transform_4 i) (hinb0_4 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S32768 : Shape := ⟨1, ![32768]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768, .f32⟩
  | .hbm, ⟨2, _⟩ => ⟨S64x4096, .f32⟩
  | .hbm, ⟨3, _⟩ => ⟨S4096x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Spec.lean ====
/-
  The router gate as ONE function of the three argument arrays, on the extended reals.

  For token `r` and expert `e` the logit is the inner product over the 4096 features of row `r` of the activations
  with row `e` of the weight. A row of 64 logits is turned into probabilities by the shifted softmax: with `M` the
  row's maximum (folded from −∞), entry `e` is `exp (l e − M)` divided by the sum over the row of `exp (l e' − M)`;
  the result is scaled by the token's mask value. Both programs compute exactly this term; no algebraic law beyond
  commutativity of a product is needed to join them, so finiteness of the inputs is never used.
-/
import Idealize.ShloMosaic.PureOps.Ideal
import Idealize.ShloMosaic.PureOps.Ideal.Laws
import Idealize.ShloMosaic.Lib.ValueIdx

noncomputable section

namespace Cert.Gating

open Idealize.ShloMosaic Idealize.ShloMosaic.ValueIdx

/-- The inner product of two feature rows of length 4096. -/
def dot (a b : Fin 4096 → EReal) : EReal := ∑ k : Fin 4096, a k * b k

/-- The maximum of a row of 64 extended reals, folded from the f32 pattern of −∞. -/
def rowMax (l : Fin 64 → EReal) : EReal :=
  (Finset.univ : Finset (Fin 64)).fold max (Ideal.ofBits .f32 0xFF800000#32) l

/-- The shifted softmax of a row of 64 logits at expert `e`, scaled by the token's mask value `mk`. -/
def gate (l : Fin 64 → EReal) (mk : EReal) (e : Fin 64) : EReal :=
  Ideal.div (Ideal.exp (l e - rowMax l)) (∑ e' : Fin 64, Ideal.exp (l e' - rowMax l)) * mk

/-- The logits array: entry `(r, e)` is the inner product of activation row `r` with weight row `e`. -/
def logits (x : (⟨2, ![32768, 4096]⟩ : Shape).Idx → EReal) (w : (⟨2, ![64, 4096]⟩ : Shape).Idx → EReal) :
    (⟨2, ![32768, 64]⟩ : Shape).Idx → EReal :=
  fun i => dot (fun k => x (ix2 (i 0) k)) (fun k => w (ix2 (i 1) k))

/-- The probabilities array: the gate of token `r`'s row of logits, scaled by the token's mask value. -/
def probs (x : (⟨2, ![32768, 4096]⟩ : Shape).Idx → EReal) (msk : (⟨1, ![32768]⟩ : Shape).Idx → EReal)
    (w : (⟨2, ![64, 4096]⟩ : Shape).Idx → EReal) : (⟨2, ![32768, 64]⟩ : Shape).Idx → EReal :=
  fun i => gate (fun e => logits x w (ix2 (i 0) e)) (msk (ix1 (i 0))) (i 1)

theorem logits_ix2 (x : (⟨2, ![32768, 4096]⟩ : Shape).Idx → EReal) (w : (⟨2, ![64, 4096]⟩ : Shape).Idx → EReal)
    (r : Fin 32768) (e : Fin 64) :
    logits x w (ix2 r e) = dot (fun k => x (ix2 r k)) (fun k => w (ix2 e k)) := rfl

/-- The f32 pattern of −∞ is the bottom of the extended reals, so folding `max` from it adds nothing. -/
theorem negInf_eq_bot : Ideal.ofBits .f32 0xFF800000#32 = (⊥ : EReal) := by
  simp [Ideal.ofBits, Ideal.ieee]

theorem max_negInf (y : EReal) : max (Ideal.ofBits .f32 0xFF800000#32) y = y := by
  rw [negInf_eq_bot]; exact max_bot_left y

end Cert.Gating

end
-- ==== Proof.RefBridge.lean ====
/-
  The reference's two results are the specification's two arrays.

  Read stage by stage: the transpose and the `dot_general` give the logits (a sum over the features of an activation
  entry times a weight entry); the reduce with a maximum body, folded from −∞, followed by one more `max` with −∞, is the
  row maximum; the exponential of the shifted logits summed along the row (from the zero initial value) is the
  denominator; the quotient times the broadcast mask is the gate.
-/
import proofs.«113327_g17343077941498_cont_7to1_743_16_alg».proof.Proof.Gen.ReferenceIdeal.Read
import proofs.«113327_g17343077941498_cont_7to1_743_16_alg».proof.Proof.Spec
import Idealize.ShloMosaic.PureOps.Reduce

noncomputable section

namespace Cert.Gating.Ref

open Cert.ReferenceIdeal Cert.ReferenceIdeal.Gen Cert.ReferenceIdeal.Read Idealize.ShloMosaic Idealize.ShloMosaic.ValueIdx
open Cert.Gating

variable (x0 : (⟨S32768x4096, .f32⟩ : BufTy).Contents (Elt Ideal)) (x1 : (⟨S32768, .f32⟩ : BufTy).Contents (Elt Ideal))
  (x2 : (⟨S64x4096, .f32⟩ : BufTy).Contents (Elt Ideal))

/-- The matrix product against the transposed weight is the logits array. -/
theorem v1_eq : val_main_v1 (F := Ideal) x0 x2 = logits x0 x2 := by
  funext i
  rw [val_main_v1_apply]
  show _ = dot _ _
  unfold dot
  refine Finset.sum_congr rfl fun k _ => ?_
  rw [val_main_v0_apply]
  congr 1
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

/-- A reduced index with the expert coordinate put back is (token, expert). -/
theorem lift_eq (h : S32768x64.Reduces [1] S32768) (j : S32768.Idx) (e : Fin (S32768x64.size 1)) :
    h.lift j e = ix2 (j 0) (⟨e.val, e.isLt⟩ : Fin 64) := by
  funext a; apply Fin.ext
  match a with
  | ⟨0, _⟩ => rfl
  | ⟨1, _⟩ => rfl

/-- The reduce with a maximum body over the experts is the row maximum of the token's logits. -/
theorem v2_apply (j : S32768.Idx) :
    val_main_v2 (F := Ideal) x0 x2 j = rowMax (fun e => logits x0 x2 (ix2 (j 0) e)) := by
  unfold val_main_v2
  rw [v1_eq]
  have h : S32768x64.Reduces [1] S32768 := by decide
  rw [Host.reduce_eq_fold_single FloatOps.maximumf _ _ reducesTo_S32768x64_S32768_d1 h h_S_]
  unfold rowMax
  have hf : (logits x0 x2 ∘ h.lift j) = fun e : Fin 64 => logits x0 x2 (ix2 (j 0) e) :=
    funext fun e => congrArg (logits x0 x2) (lift_eq h j e)
  rw [hf]
  rfl

/-- One more `max` with −∞ changes nothing. -/
theorem v4_apply (j : S32768.Idx) :
    val_main_v4 (F := Ideal) x0 x2 j = rowMax (fun e => logits x0 x2 (ix2 (j 0) e)) := by
  rw [val_main_v4_apply, val_main_v3_apply, val_main_cst_0_apply, v2_apply]
  exact max_negInf _

/-- The exponential of the shifted logit. -/
theorem v8_apply (i : S32768x64.Idx) :
    val_main_v8 (F := Ideal) x0 x2 i
      = Ideal.exp (logits x0 x2 i - rowMax (fun e => logits x0 x2 (ix2 (i 0) e))) := by
  rw [val_main_v8_apply, val_main_v7_apply, val_main_v6_apply, val_main_v5_apply, v4_apply, v1_eq]
  rfl

/-- The row's denominator: the sum over the experts of the shifted exponentials. -/
theorem v9_apply (j : S32768.Idx) :
    val_main_v9 (F := Ideal) x0 x2 j
      = ∑ e' : Fin 64, Ideal.exp (logits x0 x2 (ix2 (j 0) e') - rowMax (fun e => logits x0 x2 (ix2 (j 0) e))) := by
  rw [val_main_v9_apply, val_main_cst_1_apply]
  show Ideal.ofBits .f32 0x00000000#32 + _ = _
  rw [Ideal.ofBits_zero_f32, zero_add]
  refine Finset.sum_congr rfl fun k _ => ?_
  rw [v8_apply]
  rfl

/-- The first result is the probabilities array. -/
theorem v15_eq : val_main_v15 (F := Ideal) x0 x1 x2 = probs x0 x1 x2 := by
  funext i
  rw [val_main_v15_apply, val_main_v12_apply, val_main_v11_apply, val_main_v10_apply, v9_apply, v8_apply,
    val_main_v14_apply, val_main_v13_apply]
  have e1 : logits x0 x2 i = logits x0 x2 (ix2 (i 0) (i 1)) := congrArg (logits x0 x2) (eq_ix2 i)
  have e2 : idx_main_v13 (idx_main_v14 i) = ix1 (i 0) :=
    funext fun a => Fin.ext (by match a with | ⟨0, _⟩ => rfl)
  rw [e2, e1]
  rfl

end Cert.Gating.Ref

end
-- ==== Proof.KernelPay.lean ====
/-
  The kernel body's two stored values, read at an index of the 512 × 64 block.

  The logits tile is the transpose of the product of the 64 × 4096 weight block with the 512 × 4096 activation block,
  contracted over the features: at (p, e) it is the sum over k of weight (e, k) times activation (p, k), which is the
  inner product of activation row p with weight row e. The probabilities tile is, at (p, e), the gate of row p of
  that tile (row maximum folded from −∞, shifted exponentials, their row sum, the quotient) times the mask column's
  entry for row p; the column broadcasts (a length-512 vector cast to a column and broadcast along the 64 lanes)
  read at (p, e) are the vector's entry p.
-/
import proofs.«113327_g17343077941498_cont_7to1_743_16_alg».proof.Proof.Gen.KernelIdeal.Value
import proofs.«113327_g17343077941498_cont_7to1_743_16_alg».proof.Proof.Spec
import Idealize.ShloMosaic.Lib.ValueIdx
import Idealize.ShloMosaic.Lib.Pipeline.Value
import Idealize.ShloMosaic.PureOps.Ideal.Laws

noncomputable section

namespace Cert.Gating.Ker

open Cert.KernelIdeal Cert.KernelIdeal.Gen Idealize.ShloMosaic Idealize.ShloMosaic.ValueIdx
open Cert.Gating

/-! ## The matrix product's operand indices -/

theorem lhs_0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
theorem lhs_1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
theorem rhs_0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
theorem rhs_1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The logits tile at (p, e): the inner product of activation row p with weight row e. -/
theorem pay1_apply (P0 : Vec Ideal S64x4096 .f32) (P1 : Vec Ideal S512x4096 .f32) (p : Fin 512) (e : Fin 64) :
    k0_pay1 P0 P1 (ix2 p e) = dot (fun k => P1 (ix2 p k)) (fun k => P0 (ix2 e k)) := by
  unfold k0_pay1
  dsimp only
  refine (transpose_apply [1, 0] _ transposes_S64x512_p1_0_S512x64 (ix2 p e) (ix2 e p) (fun b => match b with
    | ⟨0, _⟩ => rfl
    | ⟨1, _⟩ => rfl)).trans ?_
  simp only [matmul]
  rw [Ideal.matmul_constant_zero_apply, ← Equiv.sum_comp (contrEquiv1 dot_S64x4096_S512x4096_S64x512_1_1_0_0_n_n 4096 rfl rfl).symm]
  unfold dot
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 e p) ((contrEquiv1 dot_S64x4096_S512x4096_S64x512_1_1_0_0_n_n 4096 rfl rfl).symm k) = ix2 e k := funext fun a => Fin.ext (by
    match a with
    | ⟨0, _⟩ => exact lhs_0 _ _
    | ⟨1, _⟩ => exact (lhs_1 _ _).trans hk)
  have er : dot_S64x4096_S512x4096_S64x512_1_1_0_0_n_n.rhsIdx (ix2 e p) ((contrEquiv1 dot_S64x4096_S512x4096_S64x512_1_1_0_0_n_n 4096 rfl rfl).symm k) = ix2 p k := funext fun a => Fin.ext (by
    match a with
    | ⟨0, _⟩ => exact rhs_0 _ _
    | ⟨1, _⟩ => exact (rhs_1 _ _).trans hk)
  rw [el, er]
  exact mul_comm _ _

/-! ## The lane reductions and the column broadcasts -/

/-- A reduced row index with the lane coordinate put back is (row, lane). -/
theorem lift_eq (p : Fin 512) (e : Fin (S512x64.size 1)) :
    reduces_S512x64_S512.lift (ix1 p) e = ix2 p (⟨e.val, e.isLt⟩ : Fin 64) := by
  funext a; apply Fin.ext
  match a with
  | ⟨0, _⟩ => rfl
  | ⟨1, _⟩ => rfl

/-- The lane maximum of a tile at row p is the row maximum of that row. -/
theorem laneMax_apply (A : FVec Ideal S512x64 .f32) (p : Fin 512) :
    multiReduction .maximumf [1] S512 A 0xFF800000#32 reduces_S512x64_S512 (.inl rfl) rfl (ix1 p)
      = rowMax (fun e => A (ix2 p e)) := by
  refine (Ideal.multiReduction_maximumf_single A _ reduces_S512x64_S512 _ _ (ix1 p)).trans ?_
  unfold rowMax
  have hf : (A ∘ reduces_S512x64_S512.lift (ix1 p)) = fun e : Fin 64 => A (ix2 p e) :=
    funext fun e => congrArg A (lift_eq p e)
  rw [hf]
  rfl

/-- The lane sum of a tile at row p is the sum of that row. -/
theorem laneSum_apply (A : FVec Ideal S512x64 .f32) (p : Fin 512) :
    multiReduction .add [1] S512 A 0x00000000#32 reduces_S512x64_S512 (.inl rfl) rfl (ix1 p)
      = ∑ e : Fin 64, A (ix2 p e) := by
  refine (Ideal.multiReduction_add_single A _ reduces_S512x64_S512 _ _ (ix1 p)).trans ?_
  exact Finset.sum_congr rfl fun e _ => congrArg A (lift_eq p e)

/-- A length-512 vector cast to a column and broadcast along the lanes, read at (p, e), is its entry p. -/
theorem colBc {α : Type} (M : S512.Idx → α) (p : Fin 512) (e : Fin 64) :
    broadcastTo S512x64 (shapeCast S512x1 M shapeCasts_S512_S512x1) broadcasts_S512x1_S512x64 (ix2 p e) = M (ix1 p) := by
  refine (broadcastTo_apply _ _ (ix2 p e) (ix2 p (0 : Fin 1)) (fun a => match a with
    | ⟨0, _⟩ => by show p.val = (if (512 : Nat) = 1 then 0 else p.val); rw [if_neg (by decide)]
    | ⟨1, _⟩ => by show 0 = (if (1 : Nat) = 1 then 0 else e.val); rw [if_pos rfl])).trans ?_
  exact shapeCast_apply _ _ (ix2 p (0 : Fin 1)) (ix1 p) (by
    rw [Shape.rowMajor_val_one, Shape.rowMajor_val_two]; show p.val = p.val * 1 + 0; omega)

/-- A 512 × 1 column broadcast along the lanes, read at (p, e), is its entry (p, 0). -/
theorem colBc1 {α : Type} (P2 : S512x1.Idx → α) (p : Fin 512) (e : Fin 64) :
    broadcastTo S512x64 (shapeCast S512x1 P2 shapeCasts_S512x1_S512x1) broadcasts_S512x1_S512x64 (ix2 p e)
      = P2 (ix2 p (0 : Fin 1)) := by
  rw [shapeCast_self]
  exact broadcastTo_apply _ _ (ix2 p e) (ix2 p (0 : Fin 1)) (fun a => match a with
    | ⟨0, _⟩ => by show p.val = (if (512 : Nat) = 1 then 0 else p.val); rw [if_neg (by decide)]
    | ⟨1, _⟩ => by show 0 = (if (1 : Nat) = 1 then 0 else e.val); rw [if_pos rfl])

theorem exp_apply {s : Shape} (a : FVec Ideal s .f32) (i : s.Idx) : exp a i = Ideal.exp (a i) := rfl

/-- A softmax tile read at (p, e), for ANY logits tile `A`, any vectors `MX`, `SM` that hold at row p the row maximum
    and the row sum of the shifted exponentials, and any mask column: the gate of row p of `A` times the mask entry. -/
theorem gateTile_apply (A : FVec Ideal S512x64 .f32) (MX SM : FVec Ideal S512 .f32) (P2 : Vec Ideal S512x1 .f32)
    (p : Fin 512) (e : Fin 64)
    (hMX : MX (ix1 p) = rowMax (fun e' => A (ix2 p e')))
    (hSM : SM (ix1 p) = ∑ e' : Fin 64, exp (subf A (broadcastTo S512x64 (shapeCast S512x1 MX shapeCasts_S512_S512x1) broadcasts_S512x1_S512x64)) (ix2 p e')) :
    mulf (divf (exp (subf A (broadcastTo S512x64 (shapeCast S512x1 MX shapeCasts_S512_S512x1) broadcasts_S512x1_S512x64)))
        (broadcastTo S512x64 (shapeCast S512x1 SM shapeCasts_S512_S512x1) broadcasts_S512x1_S512x64))
      (broadcastTo S512x64 (shapeCast S512x1 P2 shapeCasts_S512x1_S512x1) broadcasts_S512x1_S512x64) (ix2 p e)
      = gate (fun e' => A (ix2 p e')) (P2 (ix2 p (0 : Fin 1))) e := by
  simp only [mulf_apply, divf_apply, exp_apply, subf_apply, colBc, colBc1, hMX, hSM]
  rfl

/-- The probabilities tile at (p, e): the gate of row p of the logits tile, times the mask entry of row p. -/
theorem pay2_apply (P0 : Vec Ideal S64x4096 .f32) (P1 : Vec Ideal S512x4096 .f32) (P2 : Vec Ideal S512x1 .f32)
    (p : Fin 512) (e : Fin 64) :
    k0_pay2 P0 P1 P2 (ix2 p e)
      = gate (fun e' => dot (fun k => P1 (ix2 p k)) (fun k => P0 (ix2 e' k))) (P2 (ix2 p (0 : Fin 1))) e := by
  rw [Cert.KernelIdeal.Value.lay3_0_eq]
  refine (gateTile_apply (k0_pay1 P0 P1) _ _ P2 p e (laneMax_apply _ p) (laneSum_apply _ p)).trans ?_
  exact congrArg (fun l => gate l (P2 (ix2 p (0 : Fin 1))) e) (funext fun e' => pay1_apply P0 P1 p e')

end Cert.Gating.Ker

end
-- ==== Proof.KernelValue.lean ====
/-
  From the blocks to the two result arrays.

  Grid point t (of 64) handles token rows 512·t … 512·t + 511: its activation block is those rows of the activations,
  its mask block those rows of the mask column (the mask vector reshaped to one column), its weight block the whole
  weight; it writes back rows 512·t … 512·t + 511 of both results. Row p of the point's block is token 512·t + p, so the
  block written back is the specification's array read through the block, and the 64 blocks tile the 32768 rows
  (row r lies in block r / 512): each result array ends holding the specification's array.
-/
import proofs.«113327_g17343077941498_cont_7to1_743_16_alg».proof.Proof.Gen.KernelIdeal.Value
import proofs.«113327_g17343077941498_cont_7to1_743_16_alg».proof.Proof.KernelPay
import Idealize.ShloMosaic.Lib.StableHlo.Run
import Idealize.ShloMosaic.Lib.Pipeline.Value
import Idealize.ShloMosaic.Lib.Tactic

noncomputable section

namespace Cert.Gating.Ker

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Gating

variable (m : (ℓ : Loc nD τ sig) → Buf (Elt Ideal) ℓ) (ρ : Dev nD → PrngReg)

theorem hz : (![0, 0] : Fin 2 → Nat) = fun _ => 0 := funext fun a => by fin_cases a <;> rfl

/-- The three argument arrays as launched, at their literal types. -/
abbrev xArr (c : Dev nD) : S32768x4096.Idx → EReal := m ((c : Thread nD τ).loc main_arg0)
abbrev mArr (c : Dev nD) : S32768.Idx → EReal := m ((c : Thread nD τ).loc main_arg1)
abbrev wArr (c : Dev nD) : S64x4096.Idx → EReal := m ((c : Thread nD τ).loc main_arg2)

/-- Token row 512·t + p: row p of grid point t's blocks. -/
abbrev row (t : Fin cfg0.N) (p : Fin 512) : Fin 32768 :=
  ⟨t.val * 512 + p.val, by have := t.isLt; have h : cfg0.N = 64 := N_0; have := p.isLt; omega⟩

/-- The printed index maps, decided over the 64 grid points: the row-blocked windows sit at block row t, the weight at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The mask column the region finds: the mask vector reshaped to 32768 × 1. -/
theorem V_mask (c : Dev nD) :
    (V m c main_v0 : S32768x1.Idx → EReal) = shapeCast S32768x1 (mArr m c) shapeCasts_S32768_S32768x1 := by
  dsimp only [V, hostOps0]
  after_results
  rfl

/-- Row p of point t's activation block is token row 512·t + p. -/
theorem xblk_apply (c : Dev nD) (t : Fin cfg0.N) (p : Fin 512) (k : Fin 4096) :
    (iblk m c 0 t : Vec Ideal S512x4096 .f32) (ix2 p k) = xArr m c (ix2 (row t p) k) := by
  obtain ⟨e0, e1, -⟩ := idx_facts t
  unfold iblk
  rw [View.read_apply]
  show V m c main_arg0 _ = _
  rw [V_main_arg0 m c]
  refine congrArg (xArr m c) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- The weight block is the weight. -/
theorem wblk_apply (c : Dev nD) (t : Fin cfg0.N) (e : Fin 64) (k : Fin 4096) :
    (iblk m c 2 t : Vec Ideal S64x4096 .f32) (ix2 e k) = wArr m c (ix2 e k) := by
  obtain ⟨-, -, -, -, e4, e5, -⟩ := idx_facts t
  unfold iblk
  rw [View.read_apply]
  show V m c main_arg2 _ = _
  rw [V_main_arg2 m c]
  refine congrArg (wArr m c) (funext fun a => Fin.ext ?_)
  match a with
  | ⟨0, _⟩ => show win0_2.index t (0 : Fin 2) * 64 + 1 * e.val = e.val; rw [e4]; omega
  | ⟨1, _⟩ => show win0_2.index t (1 : Fin 2) * 4096 + 1 * k.val = k.val; rw [e5]; omega

/-- Row p of point t's mask block is the mask of token 512·t + p. -/
theorem mblk_apply (c : Dev nD) (t : Fin cfg0.N) (p : Fin 512) :
    (iblk m c 1 t : Vec Ideal S512x1 .f32) (ix2 p (0 : Fin 1)) = mArr m c (ix1 (row t p)) := by
  obtain ⟨-, -, e2, e3, -⟩ := idx_facts t
  unfold iblk
  rw [View.read_apply]
  show (V m c main_v0 : S32768x1.Idx → EReal) _ = _
  rw [V_mask m c]
  refine shapeCast_apply _ _ _ (ix1 (row t p)) ?_
  rw [Shape.rowMajor_val_one, Shape.rowMajor_val_two]
  show t.val * 512 + p.val = (win0_1.index t (0 : Fin 2) * 512 + 1 * p.val) * 1 + (win0_1.index t (1 : Fin 2) * 1 + 1 * 0)
  rw [e2, e3]; omega

/-- Entry (p, e) of point t's block of a result array is entry (512·t + p, e) of the array. -/
theorem emb3 (t : Fin cfg0.N) (p : Fin 512) (e : Fin 64) :
    ((cfg0.win 3).blk t).view.emb (ix2 p e) = ix2 (row t p) e := by
  obtain ⟨-, -, -, -, -, -, e6, e7, -⟩ := idx_facts t
  funext a; apply Fin.ext
  match a with
  | ⟨0, _⟩ => show win0_3.index t (0 : Fin 2) * 512 + 1 * p.val = t.val * 512 + p.val; rw [e6]; omega
  | ⟨1, _⟩ => show win0_3.index t (1 : Fin 2) * 64 + 1 * e.val = e.val; rw [e7]; omega

theorem emb4 (t : Fin cfg0.N) (p : Fin 512) (e : Fin 64) :
    ((cfg0.win 4).blk t).view.emb (ix2 p e) = ix2 (row t p) e := by
  obtain ⟨-, -, -, -, -, -, -, -, e8, e9⟩ := idx_facts t
  funext a; apply Fin.ext
  match a with
  | ⟨0, _⟩ => show win0_4.index t (0 : Fin 2) * 512 + 1 * p.val = t.val * 512 + p.val; rw [e8]; omega
  | ⟨1, _⟩ => show win0_4.index t (1 : Fin 2) * 64 + 1 * e.val = e.val; rw [e9]; omega

/-- The logits of token 512·t + p from point t's blocks. -/
theorem blockLogits (c : Dev nD) (t : Fin cfg0.N) (p : Fin 512) (e : Fin 64) :
    dot (fun k => (iblk m c 0 t : Vec Ideal S512x4096 .f32) (ix2 p k)) (fun k => (iblk m c 2 t : Vec Ideal S64x4096 .f32) (ix2 e k))
      = logits (xArr m c) (wArr m c) (ix2 (row t p) e) := by
  rw [logits_ix2]
  congr 1
  · funext k; exact xblk_apply m c t p k
  · funext k; exact wblk_apply m c t e k

/-- WHAT POINT t WRITES BACK to the probabilities array is block t of the specification's probabilities. -/
theorem flushed3_eq (c : Dev nD) (t : Fin cfg0.N) :
    (dats m 0 c).flushed 3 t
      = ((cfg0.win 3).blk t).view.read (Elt Ideal) (probs (xArr m c) (mArr m c) (wArr m c)) := by
  rw [Cert.KernelIdeal.Value.flushed3]
  unfold out0_3
  rw [View.canon_unit_zero hz]
  simp only [View.ld_unit_zero (S := S64x4096) hz, View.ld_unit_zero (S := S512x4096) hz, View.ld_unit_zero (S := S512x1) hz]
  funext y
  obtain ⟨p, e, rfl⟩ : ∃ (p : Fin 512) (e : Fin 64), y = ix2 p e := ⟨y 0, y 1, eq_ix2 y⟩
  show k0_pay2 (iblk m c 2 t) (iblk m c 0 t) (iblk m c 1 t) (ix2 p e)
    = probs (xArr m c) (mArr m c) (wArr m c) (((cfg0.win 3).blk t).view.emb (ix2 p e))
  refine (pay2_apply (iblk m c 2 t) (iblk m c 0 t) (iblk m c 1 t) p e).trans ?_
  rw [emb3 t p e]
  show gate _ _ e = gate (fun e' => logits (xArr m c) (wArr m c) (ix2 (row t p) e')) (mArr m c (ix1 (row t p))) e
  rw [mblk_apply m c t p]
  exact congrArg (fun l => gate l (mArr m c (ix1 (row t p))) e) (funext fun e' => blockLogits m c t p e')

/-- WHAT POINT t WRITES BACK to the logits array is block t of the specification's logits. -/
theorem flushed4_eq (c : Dev nD) (t : Fin cfg0.N) :
    (dats m 0 c).flushed 4 t
      = ((cfg0.win 4).blk t).view.read (Elt Ideal) (logits (xArr m c) (wArr m c)) := by
  rw [Cert.KernelIdeal.Value.flushed4]
  unfold out0_4
  rw [View.canon_unit_zero hz]
  simp only [View.ld_unit_zero (S := S64x4096) hz, View.ld_unit_zero (S := S512x4096) hz]
  funext y
  obtain ⟨p, e, rfl⟩ : ∃ (p : Fin 512) (e : Fin 64), y = ix2 p e := ⟨y 0, y 1, eq_ix2 y⟩
  show k0_pay1 (iblk m c 2 t) (iblk m c 0 t) (ix2 p e)
    = logits (xArr m c) (wArr m c) (((cfg0.win 4).blk t).view.emb (ix2 p e))
  refine (pay1_apply (iblk m c 2 t) (iblk m c 0 t) p e).trans ?_
  rw [emb4 t p e]
  exact blockLogits m c t p e

/-- An index of a result array is in point t's block iff each coordinate is in the block's range on its axis. -/
theorem mem_blk3 (t : Fin cfg0.N) (i : S32768x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1_0).slice (win0_3.rect t)).set ↔ _
  rw [View.set_slice_whole, Rect.mem_set_unit]
  exact Iff.rfl

theorem mem_blk4 (t : Fin cfg0.N) (i : S32768x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v1_1).slice (win0_4.rect t)).set ↔ _
  rw [View.set_slice_whole, Rect.mem_set_unit]
  exact Iff.rfl

/-- Row r lies in the block of point r / 512. -/
theorem cover3 (i : S32768x64.Idx) :
    ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 64 := N_0
  refine ⟨⟨(i 0).val / 512, by omega⟩, flush0_3 _, ?_⟩
  obtain ⟨-, -, -, -, -, -, e6, e7, -⟩ := idx_facts ⟨(i 0).val / 512, by omega⟩
  rw [mem_blk3]
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, _⟩ (1 : Fin 2) * 64 ≤ (i 1).val ∧ (i 1).val < win0_3.index ⟨(i 0).val / 512, _⟩ (1 : Fin 2) * 64 + 64
    rw [e7]; omega

theorem cover4 (i : S32768x64.Idx) :
    ∃ t : Fin cfg0.N, (cfg0.win 4).flush t = true ∧ i ∈ ((cfg0.win 4).blk t).view.set := by
  have hi0 : (i 0).val < 32768 := (i 0).isLt
  have hi1 : (i 1).val < 64 := (i 1).isLt
  have hN : cfg0.N = 64 := N_0
  refine ⟨⟨(i 0).val / 512, by omega⟩, flush0_4 _, ?_⟩
  obtain ⟨-, -, -, -, -, -, -, -, e8, e9⟩ := idx_facts ⟨(i 0).val / 512, by omega⟩
  rw [mem_blk4]
  intro a
  match a with
  | ⟨0, _⟩ =>
    show win0_4.index ⟨(i 0).val / 512, _⟩ (0 : Fin 2) * 512 ≤ (i 0).val ∧ (i 0).val < win0_4.index ⟨(i 0).val / 512, _⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, _⟩ (1 : Fin 2) * 64 ≤ (i 1).val ∧ (i 1).val < win0_4.index ⟨(i 0).val / 512, _⟩ (1 : Fin 2) * 64 + 64
    rw [e9]; omega

/-- The probabilities array after the run is the specification's. -/
theorem final3 (c : Dev nD) : (dats m 0 c).arrAt 3 cfg0.N = probs (xArr m c) (mArr m c) (wArr m c) :=
  (dats m 0 c).arrAt_eq_of_cover 3 (probs (xArr m c) (mArr m c) (wArr m c)) (fun t _ => flushed3_eq m c t) cover3

/-- The logits array after the run is the specification's. -/
theorem final4 (c : Dev nD) : (dats m 0 c).arrAt 4 cfg0.N = logits (xArr m c) (wArr m c) :=
  (dats m 0 c).arrAt_eq_of_cover 4 (logits (xArr m c) (wArr m c)) (fun t _ => flushed4_eq m c t) cover4

/-- The kernel's run, read: each result array at the specification's function of the arguments, the arguments unchanged. -/
theorem run : θ_run defs (onTc (τ := τ) (main (F := Ideal))) ⟨m, fun _ => 0, ρ⟩ fun r => ∀ c : Dev nD,
      r.2.mem ((c : Thread nD τ).loc main_v1_0) = probs (xArr m c) (mArr m c) (wArr m c)
      ∧ r.2.mem ((c : Thread nD τ).loc main_v1_1) = logits (xArr m c) (wArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.Gating.Ker

end
-- ==== Proof.lean ====
/-
  A mixture-of-experts router gate: logits = activations · weightᵀ over 4096 features, probabilities = the softmax of
  each token's 64 logits (shifted by the row maximum) scaled by the token's padding mask; both arrays are results.

  The kernel computes, per block of 512 tokens, the product with the weight as the stationary operand and transposes
  the 64 × 512 tile; the reference multiplies by the transposed weight and takes one more maximum with −∞ before the
  shift. On the extended reals both are the same term, index by index: the two products differ only in the order of the
  factors inside the sum over the features, a maximum with −∞ is the identity, and a lane reduction and the host's
  reduce are the same fold or sum over the 64 experts. So the probabilities and the logits of the two programs are the
  specification's two arrays (Proof/Spec.lean), the kernel's by its blocks tiling the token rows
  (Proof/KernelPay.lean, Proof/KernelValue.lean) and the reference's stage by stage (Proof/RefBridge.lean).
  No step uses that the inputs are finite. The ideal pass rewrote nothing, so the idealization claim is trivial; the
  three frames are the generated ones (the reference's is its run with the results dropped).
-/
import proofs.«113327_g17343077941498_cont_7to1_743_16_alg».proof.Defs
import proofs.«113327_g17343077941498_cont_7to1_743_16_alg».proof.Proof.Gen.Kernel
import proofs.«113327_g17343077941498_cont_7to1_743_16_alg».proof.Proof.Gen.Kernel.Skeleton
import proofs.«113327_g17343077941498_cont_7to1_743_16_alg».proof.Proof.Gen.Kernel.Launch
import proofs.«113327_g17343077941498_cont_7to1_743_16_alg».proof.Proof.Gen.Kernel.Points
import proofs.«113327_g17343077941498_cont_7to1_743_16_alg».proof.Proof.Gen.Kernel.Frame
import proofs.«113327_g17343077941498_cont_7to1_743_16_alg».proof.Proof.Gen.KernelIdeal
import proofs.«113327_g17343077941498_cont_7to1_743_16_alg».proof.Proof.Gen.KernelIdeal.Skeleton
import proofs.«113327_g17343077941498_cont_7to1_743_16_alg».proof.Proof.Gen.KernelIdeal.Launch
import proofs.«113327_g17343077941498_cont_7to1_743_16_alg».proof.Proof.Gen.KernelIdeal.Points
import proofs.«113327_g17343077941498_cont_7to1_743_16_alg».proof.Proof.Gen.KernelIdeal.Frame
import proofs.«113327_g17343077941498_cont_7to1_743_16_alg».proof.Proof.Gen.ReferenceIdeal
import proofs.«113327_g17343077941498_cont_7to1_743_16_alg».proof.Proof.Gen.Pre_finite_inputs
import proofs.«113327_g17343077941498_cont_7to1_743_16_alg».proof.Proof.Gen.KernelIdeal.Value
import proofs.«113327_g17343077941498_cont_7to1_743_16_alg».proof.Proof.Gen.ReferenceIdeal.Run
import proofs.«113327_g17343077941498_cont_7to1_743_16_alg».proof.Proof.Gen.ReferenceIdeal.Read
import proofs.«113327_g17343077941498_cont_7to1_743_16_alg».proof.Proof.Spec
import proofs.«113327_g17343077941498_cont_7to1_743_16_alg».proof.Proof.RefBridge
import proofs.«113327_g17343077941498_cont_7to1_743_16_alg».proof.Proof.KernelPay
import proofs.«113327_g17343077941498_cont_7to1_743_16_alg».proof.Proof.KernelValue
import Idealize.ShloMosaic.Adequacy
import Idealize.ShloMosaic.Init

noncomputable section

namespace Cert.Proof

open Idealize.ShloMosaic Idealize.ShloMosaic.TcCoe Idealize.SL.Sem
open Cert.Gating

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the probabilities and the logits of the specification, of arguments that agree. -/
theorem algebraic : Cert.algebraic_KernelIdeal_ReferenceIdeal := by
  intro m ρ m' ρ' _ hagree
  refine ⟨fun c => probs (Ker.xArr m c) (Ker.mArr m c) (Ker.wArr m c), fun c => logits (Ker.xArr m c) (Ker.wArr m c),
    Cert.Gating.Ker.run m ρ, ?_⟩
  refine (θ_run Cert.ReferenceIdeal.defs _ _).mono (fun _ h c => ?_) (Cert.ReferenceIdeal.Value.run (F := Ideal) m' ρ')
  obtain ⟨h1, h2, h3⟩ := h c
  refine ⟨h1.trans ?_, h2.trans ?_, h3⟩
  · rw [(hagree c).1, (hagree c).2.1, (hagree c).2.2]
    exact (Cert.ReferenceIdeal.Read.val_main_v15_eq _ _ _).trans (Cert.Gating.Ref.v15_eq _ _ _)
  · rw [(hagree c).1, (hagree c).2.2]
    exact (Cert.ReferenceIdeal.Read.val_main_v1_eq _ _).trans (Cert.Gating.Ref.v1_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
